-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024 : Shape := ⟨1, ![1024]⟩
abbrev S_ : Shape := ⟨0, ![]⟩

class Facts : Prop where

variable [Facts]

def fn {F : FTy → Type} [FloatOps F] (main_arg0 : IVec S1024 32) : IVec S_ 1 :=
  let main_c : IVec S_ 1 := constantI S_ 1 1#1
  main_c
-- ==== Kernel.lean ====
abbrev S1024 : Shape := ⟨1, ![1024]⟩
abbrev S1x1024 : Shape := ⟨2, ![1, 1024]⟩
abbrev S100000x1024 : Shape := ⟨2, ![100000, 1024]⟩
abbrev S2048x1024 : Shape := ⟨2, ![2048, 1024]⟩
abbrev S1024x100000 : Shape := ⟨2, ![1024, 100000]⟩

abbrev nBuf : Space → Nat
  | .hbm => 4
  | .vmem => 3
  | .smem => 0
  | _ => 0

abbrev bufTy : (tb : Table) → Fin (tcTables nBuf tb) → BufTy
  | .hbm, ⟨0, _⟩ => ⟨S1024, .i32⟩
  | .hbm, ⟨1, _⟩ => ⟨S1x1024, .i32⟩
  | .hbm, ⟨2, _⟩ => ⟨S100000x1024, .f32⟩
  | .hbm, ⟨3, _⟩ => ⟨S1024x100000, .f32⟩
  | .local _ .vmem, ⟨0, _⟩ => ⟨S1x1024, .i32⟩
  | .local _ .vmem, ⟨1, _⟩ => ⟨S2048x1024, .f32⟩
  | .local _ .vmem, ⟨2, _⟩ => ⟨S2048x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1024_S1x1024 : S1024.ShapeCasts S1x1024
  iota_S2048x1024_d0_w32 : S2048x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  natLt_1_32 : 1 < 32
  inb_S2048x1024_S2048x1024_0_0 : ∀ a, (![0, 0] : Fin 2 → Nat) a + S2048x1024.size a ≤ S2048x1024.size a
  h_S2048x1024 : 0 < S2048x1024.numel
  transposes_S100000x1024_S1024x100000_1_0 : S100000x1024.Transposes [1, 0] S1024x100000
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S2048x1024.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩

abbrev nBuf : Space → Nat
  | .hbm => 7
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024x1, .i32⟩
  | .hbm, ⟨2, _⟩ => ⟨S1x100000, .i32⟩
  | .hbm, ⟨3, _⟩ => ⟨S1024x100000, .i32⟩
  | .hbm, ⟨4, _⟩ => ⟨S1024x100000, .i32⟩
  | .hbm, ⟨5, _⟩ => ⟨S1024x100000, .i1⟩
  | .hbm, ⟨6, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)

variable [Facts₀]

class Facts : Prop extends Facts₀ where

variable [Facts]
-- ==== Proof.OneHot.lean ====
/- One-hot encoding, as mathematics: for a vector `users` of 1024 words and a class number `c`, the entry for batch
   element `b` and class `c` is 1 when `users b` is the word of `c` and 0 otherwise, read as an extended real. Two layouts of the
   same table are named here, the class-major one (100000 rows of 1024) and the batch-major one (1024 rows of 100000), each the
   transpose of the other; and the two ways a comparison bit becomes a number (zero-extended to 32 bits and read signed, or read
   unsigned as it is) are shown to give that same 0 or 1. -/
import Idealize.ShloMosaic.PureOps.Ideal
import Idealize.ShloMosaic.Lib.ValueIdx

noncomputable section

namespace Cert.OneHot

open Idealize.ShloMosaic Idealize.ShloMosaic.ValueIdx

/-- The indicator of two equal words: the comparison's bit as a real number, 1 where `u = v` and 0 elsewhere. -/
def hot (u v : BitVec 32) : EReal := (((IntOp.cmpi .eq u v).toNat : ℝ) : EReal)

/-- A one-bit word widened with zeros to 32 bits is 0 or 1, so read as a SIGNED integer it is still the bit. -/
theorem toInt_setWidth_bit : ∀ b : BitVec 1, (b.setWidth 32).toInt = (b.toNat : ℤ) := by decide

/-- The comparison's bit, zero-extended to a 32-bit word and converted as a signed integer, is the indicator. -/
theorem sitofp_widened_bit (u v : BitVec 32) :
    FloatOps.sitofp (F := Ideal) .f32 ((IntOp.cmpi .eq u v).setWidth 32) = hot u v := by
  show ((((IntOp.cmpi .eq u v).setWidth 32).toInt : ℝ) : EReal) = (((IntOp.cmpi .eq u v).toNat : ℝ) : EReal)
  rw [toInt_setWidth_bit, Int.cast_natCast]

/-- The comparison's bit converted as an unsigned integer is the indicator. -/
theorem uitofp_bit (u v : BitVec 32) : FloatOps.uitofp (F := Ideal) .f32 (IntOp.cmpi .eq u v) = hot u v := rfl

/-- The table with one ROW per class: entry (c, b) is the indicator of `users b = c`. -/
def classMajor (users : (⟨1, ![1024]⟩ : Shape).Idx → BitVec 32) : (⟨2, ![100000, 1024]⟩ : Shape).Idx → EReal :=
  fun i => hot (users (ix1 (i 1))) (BitVec.ofNat 32 (i 0).val)

/-- The table with one ROW per batch element: entry (b, c) is the indicator of `users b = c`. -/
def batchMajor (users : (⟨1, ![1024]⟩ : Shape).Idx → BitVec 32) : (⟨2, ![1024, 100000]⟩ : Shape).Idx → EReal :=
  fun i => hot (users (ix1 (i 0))) (BitVec.ofNat 32 (i 1).val)

/-- Adding the block's first row number to a row number inside the block, as 32-bit words, is the word of the sum: nothing
    wraps, the sum staying far below 2^32. -/
theorem row_word (j r : Nat) :
    IntOp.addi (BitVec.ofNat 32 r) (Scalar.muli (BitVec.ofNat 32 j) 2048#32) = BitVec.ofNat 32 (j * 2048 + r) := by
  show BitVec.ofNat 32 r + BitVec.ofNat 32 j * 2048#32 = _
  rw [show (2048#32 : BitVec 32) = BitVec.ofNat 32 2048 from rfl, ← BitVec.ofNat_mul, ← BitVec.ofNat_add, Nat.add_comm]

end Cert.OneHot

end
-- ==== Proof.KernelTable.lean ====
/- The idealized kernel's result, as one function of the batch's words.

   The kernel fills a table with one ROW per class, 100000 rows of 1024 columns, 2048 rows at a time: at grid point `t` it compares
   the batch's words, repeated down the block's rows, with the class numbers `t · 2048 + p` (row `p` of the block) and stores the
   comparison's bit as a float, so the block's entry (p, q) is the indicator of `users q = t · 2048 + p`. Forty-nine blocks of 2048
   rows overhang the 100000 rows by 352: of the last block only the 1696 rows that are classes are written back. Every class row
   `r` is therefore written by point `r / 2048`, and the table the region leaves is the class-major one-hot table. The line after
   the region transposes it, and the transpose of the class-major table is the batch-major one: @main's result. -/
import proofs.«176723_g33088428048464_cont_sun_c4_452_12_alg».proof.Proof.KernelIdealFrame
import proofs.«176723_g33088428048464_cont_sun_c4_452_12_alg».proof.Proof.OneHot
import Idealize.ShloMosaic.Lib.Pipeline.Value
import Idealize.ShloMosaic.Lib.ValueIdx
import Idealize.ShloMosaic.Lib.StableHlo.Run

set_option maxRecDepth 16384

noncomputable section

namespace Cert.KernelIdeal.TableValue

open Cert.KernelIdeal Cert.KernelIdeal.Gen Cert.KernelIdeal.GenP Cert.OneHot
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The value the body stores, at row `p` and column `q` of a block whose grid coordinate is `i`: the indicator that the
    loaded word of column `q` is the class number `i · 2048 + p`. The loaded row is repeated down the block's rows, the row
    numbers are the iota plus the block's first class, and the comparison's bit is widened and converted. -/
theorem payload_entry (i : grid0.Coords) (x : Vec Ideal S1x1024 .i32) (p : Fin 2048) (q : Fin 1024) :
    k0_pay1 (F := Ideal) i x (ix2 p q) = hot (x (ix2 0 q)) (BitVec.ofNat 32 ((i 0).val * 2048 + p.val)) := by
  unfold k0_pay1
  dsimp only
  rw [sitofp_apply, extui_apply]
  have hA : broadcastTo S2048x1024 (shapeCast S1x1024 x shapeCasts_S1x1024_S1x1024) broadcasts_S1x1024_S2048x1024 (ix2 p q)
      = x (ix2 0 q) := by
    rw [shapeCast_self]
    exact broadcastTo_apply x _ (ix2 p q) (ix2 0 q) (fun a => match a with
      | ⟨0, _⟩ => by show (0 : Nat) = if (1 : Nat) = 1 then 0 else _; rw [if_pos rfl]
      | ⟨1, _⟩ => by show q.val = if (1024 : Nat) = 1 then 0 else q.val; rw [if_neg (by decide)])
  have hB : addi (iota Kind.tc S2048x1024 32 [0] iota_S2048x1024_d0_w32)
        (broadcast S2048x1024 (Scalar.muli (BitVec.ofNat 32 (i 0).val) 2048#32)) (ix2 p q)
      = BitVec.ofNat 32 ((i 0).val * 2048 + p.val) := by
    show IntOp.addi (iota Kind.tc S2048x1024 32 [0] iota_S2048x1024_d0_w32 (ix2 p q))
        (Scalar.muli (BitVec.ofNat 32 (i 0).val) 2048#32) = _
    rw [iota_single_apply]
    exact row_word (i 0).val p.val
  show FloatOps.sitofp .f32 ((IntOp.cmpi .eq
      (broadcastTo S2048x1024 (shapeCast S1x1024 x shapeCasts_S1x1024_S1x1024) broadcasts_S1x1024_S2048x1024 (ix2 p q))
      (addi (iota Kind.tc S2048x1024 32 [0] iota_S2048x1024_d0_w32)
        (broadcast S2048x1024 (Scalar.muli (BitVec.ofNat 32 (i 0).val) 2048#32)) (ix2 p q))).setWidth 32) = _
  rw [hA, hB]
  exact sitofp_widened_bit _ _

/-- The batch's words: the argument array as launched. -/
abbrev users (c : Dev nD) : S1024.Idx → BitVec 32 := m ((c : Thread nD τ).loc main_arg0)

/-- The staging block after the body at grid coordinate `i`, entry by entry: its one covering store leaves the payload. -/
theorem block_entry (i : grid0.Coords) (x : Vec Ideal S1x1024 .i32) (p : Fin 2048) (q : Fin 1024) :
    out0_1 (F := Ideal) i x (ix2 p q) = hot (x (ix2 0 q)) (BitVec.ofNat 32 ((i 0).val * 2048 + p.val)) := by
  unfold out0_1
  rw [View.canon_unit_zero hz, View.ld_unit_zero (S := S1x1024) hz]
  exact payload_entry i x p q

/-- The printed index maps and cuts, decided over the 49 points: the input window always sits at block (0, 0); the output
    window's block row is the point's number, which is also the grid coordinate; its block column is 0; and the part of the
    block the write-back moves has all 1024 columns and the rows that are still inside the 100000-row array. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ (grid0.coords t 0).val = t.val
    ∧ win0_1.xsize (grid0.coords t) (0 : Fin 2) = min 2048 (100000 - t.val * 2048)
    ∧ win0_1.xsize (grid0.coords t) (1 : Fin 2) = 1024 :=
  (by decide +kernel : ∀ t : Fin grid0.N, _)

/-- The array the input window stages is the argument reshaped to one row: the host line before the region. -/
theorem staged_row (c : Dev nD) :
    (V m c main_v0 : S1x1024.Idx → BitVec 32) = shapeCast S1x1024 (users m c) shapeCasts_S1024_S1x1024 := by
  show StableHlo.after hostOps0 (fun b => m (c, b)) (Proc.devRef .tc main_v0) = _
  after_results
  rfl

/-- The input window's block at any point is that one row: entry (0, q) is the batch's word q. -/
theorem input_block (c : Dev nD) (t : Fin cfg0.N) (q : Fin 1024) :
    (iblk m c 0 t : S1x1024.Idx → BitVec 32) (ix2 0 q) = users m c (ix1 q) := by
  unfold iblk
  show V m c main_v0 (((cfg0.win 0).blk t).view.emb (ix2 0 q)) = _
  obtain ⟨e0, e1, -⟩ := idx_facts t
  have hemb : ((cfg0.win 0).blk t).view.emb (ix2 (0 : Fin 1) q) = ix2 (0 : Fin 1) q := by
    funext a; apply Fin.ext
    match a with
    | ⟨0, _⟩ => show win0_0.index t (0 : Fin 2) * 1 + 1 * 0 = 0; omega
    | ⟨1, _⟩ => show win0_0.index t (1 : Fin 2) * 1024 + 1 * q.val = q.val; omega
  rw [hemb, staged_row]
  exact shapeCast_apply _ _ (ix2 0 q) (ix1 q) (by
    rw [Shape.rowMajor_val_one, Shape.rowMajor_val_two]
    show q.val = 0 * 1024 + q.val
    omega)

/-- WHAT POINT `t` WRITES BACK is block `t` of the class-major table: row `p` of the moved part is class `t · 2048 + p`, and
    the rows of the last block that lie past class 99999 are not moved at all. -/
theorem flushed_eq (c : Dev nD) (t : Fin cfg0.N) :
    (dats m 0 c).flushed 1 t = ((cfg0.win 1).blk t).view.read (Elt Ideal) (classMajor (users m c)) := by
  show (cfg0.win 1).cut (grid0.coords t) ((dats m 0 c).after 1 t) = _
  rw [after0_1]
  obtain ⟨-, -, e2, e3, e4, -, -⟩ := idx_facts t
  funext y
  show out0_1 (grid0.coords t) (iblk m c 0 t) ((cfg0.win 1).xinj (grid0.coords t) y)
    = classMajor (users m c) (((cfg0.win 1).blk t).view.emb y)
  let p : Fin 2048 := ⟨(y 0).val, Nat.lt_of_lt_of_le (y 0).isLt (win0_1.xsize_le (grid0.coords t) 0)⟩
  let q : Fin 1024 := ⟨(y 1).val, Nat.lt_of_lt_of_le (y 1).isLt (win0_1.xsize_le (grid0.coords t) 1)⟩
  have hx : (cfg0.win 1).xinj (grid0.coords t) y = ix2 p q := by
    funext a
    match a with
    | ⟨0, _⟩ => rfl
    | ⟨1, _⟩ => rfl
  refine (congrArg (out0_1 (grid0.coords t) (iblk m c 0 t)) hx).trans ?_
  refine (block_entry (grid0.coords t) (iblk m c 0 t) p q).trans ?_
  rw [input_block m c t q]
  unfold classMajor
  have h0 : ((((cfg0.win 1).blk t).view.emb y) 0).val = (grid0.coords t 0).val * 2048 + p.val := by
    show win0_1.index t (0 : Fin 2) * 2048 + 1 * (y 0).val = (grid0.coords t 0).val * 2048 + (y 0).val
    omega
  have h1 : (((cfg0.win 1).blk t).view.emb y) 1 = q := by
    apply Fin.ext
    show win0_1.index t (1 : Fin 2) * 1024 + 1 * (y 1).val = (y 1).val
    omega
  rw [h0, h1]

/-- An index of the array is in point `t`'s block iff each coordinate is in the range the write-back moves on its axis. -/
theorem mem_blk (t : Fin cfg0.N) (i : S100000x1024.Idx) :
    i ∈ ((cfg0.win 1).blk t).view.set ↔ ∀ a : Fin 2, win0_1.index t a * S2048x1024.size a ≤ (i a).val
      ∧ (i a).val < win0_1.index t a * S2048x1024.size a + win0_1.xsize (grid0.coords t) a := by
  show i ∈ ((View.whole main_v1).slice (win0_1.rect t)).set ↔ _
  rw [View.set_slice_whole, Rect.mem_set_unit]
  exact Iff.rfl

/-- Every class row is written back by some point: class `r` by point `r / 2048`. -/
theorem cover (i : S100000x1024.Idx) :
    ∃ t : Fin cfg0.N, (cfg0.win 1).flush t = true ∧ i ∈ ((cfg0.win 1).blk t).view.set := by
  have hi0 : (i 0).val < 100000 := (i 0).isLt
  have hi1 : (i 1).val < 1024 := (i 1).isLt
  have hN : cfg0.N = 49 := N_0
  let t : Fin cfg0.N := ⟨(i 0).val / 2048, by rw [hN]; omega⟩
  have ht : t.val = (i 0).val / 2048 := rfl
  obtain ⟨-, -, e2, e3, -, e5, e6⟩ := idx_facts t
  refine ⟨t, flush0_1 t, ?_⟩
  rw [mem_blk]
  intro a
  match a with
  | ⟨0, _⟩ =>
    show win0_1.index t (0 : Fin 2) * 2048 ≤ (i 0).val ∧ (i 0).val < win0_1.index t (0 : Fin 2) * 2048 + win0_1.xsize (grid0.coords t) (0 : Fin 2)
    rw [e2, e5, ht]; omega
  | ⟨1, _⟩ =>
    show win0_1.index t (1 : Fin 2) * 1024 ≤ (i 1).val ∧ (i 1).val < win0_1.index t (1 : Fin 2) * 1024 + win0_1.xsize (grid0.coords t) (1 : Fin 2)
    rw [e3, e6]; omega

/-- THE ARRAY the region leaves: the class-major table, all 100000 rows. -/
theorem table (c : Dev nD) : (dats m 0 c).arrAt 1 cfg0.N = classMajor (users m c) :=
  (dats m 0 c).arrAt_eq_of_cover 1 (classMajor (users m c)) (fun t _ => flushed_eq m c t) cover

/-- The transpose of the class-major table is the batch-major one. -/
theorem transpose_table (u : S1024.Idx → BitVec 32) :
    transpose S1024x100000 [1, 0] (classMajor u) transposes_S100000x1024_S1024x100000_1_0 = batchMajor u := by
  funext j
  exact transpose_apply [1, 0] (classMajor u) _ j (ix2 (j 1) (j 0)) (fun b => match b with
    | ⟨0, _⟩ => rfl
    | ⟨1, _⟩ => rfl)

/-- THE RESULT: after the host line that follows the region, @main's result buffer holds the batch-major table. -/
theorem result (c : Dev nD) :
    Pipeline.afterTail₀ cfgs (dats m) 0 (V0 m) [hostOps1] c main_v2 = batchMajor (users m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = classMajor (users m c) :=
    (Pipeline.withArrays_arr spec0 launch0.win.arr_inj c _ _ 1).trans (table m c)
  rw [hw]
  exact transpose_table _

/-- THE RUN, read: every weakly fair execution of the idealized kernel's @main terminates with the result buffer at the
    batch-major one-hot table of the argument, the argument unchanged. -/
theorem run : θ_run defs (onTc (τ := τ) (main (F := Ideal))) ⟨m, fun _ => 0, ρ⟩ fun r => ∀ c : Dev nD,
      r.2.mem ((c.tc : Thread nD τ).loc main_v2) = batchMajor (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (result m c),
     ((h c).2 main_arg0 (Pipeline.mem_restRefs_of main_arg0 (by decide) (by decide))).trans (W_main_arg0 m (dats m) c)⟩)
    (run_main m ρ)

end Cert.KernelIdeal.TableValue

end
-- ==== Proof.ReferenceTable.lean ====
/- The idealized reference's result, as the same function of the batch's words.

   The reference repeats the batch's words along the class axis, repeats the class numbers 0 … 99999 along the batch axis, compares
   the two tables entry by entry and converts the comparison's bit, read unsigned, to a float: entry (b, c) is the indicator of
   `users b = c`, the batch-major one-hot table. -/
import proofs.«176723_g33088428048464_cont_sun_c4_452_12_alg».proof.Proof.Gen.ReferenceIdeal.Read
import proofs.«176723_g33088428048464_cont_sun_c4_452_12_alg».proof.Proof.OneHot
import Idealize.ShloMosaic.Lib.ValueIdx

noncomputable section

namespace Cert.ReferenceIdeal.TableValue

open Cert.ReferenceIdeal Cert.OneHot
open Idealize.ShloMosaic Idealize.ShloMosaic.ValueIdx

/-- The reference's last stage is the batch-major table: at (b, c) the first comparand is the batch's word `b` (the two
    broadcasts read coordinate 0), the second the word of `c` (the iota along the class axis). -/
theorem reference_table (x0 : (⟨S1024, .i32⟩ : BufTy).Contents (Elt Ideal)) :
    Read.val_main_v0 (F := Ideal) x0 = batchMajor x0 := by
  funext i
  rw [Read.val_main_v0_apply, Read.val_main_call0_v4_apply, Read.val_main_call0_v2_apply, Read.val_main_call0_v0_apply,
    Read.val_main_call0_v3_apply, Read.val_main_call0_v1_apply]
  have e : Read.idx_main_call0_v0 (Read.idx_main_call0_v2 i) = ix1 (i 0) :=
    funext fun a => match a with | ⟨0, _⟩ => rfl
  rw [e]
  exact uitofp_bit _ _

end Cert.ReferenceIdeal.TableValue

end
-- ==== Proof.lean ====
/- The proof of `Cert.Claim`: a Pallas kernel that one-hot encodes 1024 int32 words into 100000 classes, against
   `jax.nn.one_hot`.

   Both programs compute, at batch element `b` and class `c`, the indicator of `users b = c` as a float: the kernel in a
   class-major table it fills 2048 rows at a time (the comparison's bit zero-extended and converted as a signed integer) and then
   transposes, the reference directly in batch-major order (the bit converted as an unsigned integer). Over the extended reals the
   two conversions of a bit are the same 0 or 1, so the two results are the same table, whatever the words are: no precondition is
   used, and no arithmetic law beyond that.

   The three frames: the kernel's two are the frame certificate of its one region with the line before it and the line after it;
   the reference has no kernel, and its frame is its run with the result dropped. The idealization rewrote nothing, so `preserves`
   is trivial. `algebraic` sets the two runs side by side, both results at `batchMajor` of the argument. -/
import proofs.«176723_g33088428048464_cont_sun_c4_452_12_alg».proof.Defs
import proofs.«176723_g33088428048464_cont_sun_c4_452_12_alg».proof.Proof.Gen.Kernel
import proofs.«176723_g33088428048464_cont_sun_c4_452_12_alg».proof.Proof.Gen.KernelIdeal
import proofs.«176723_g33088428048464_cont_sun_c4_452_12_alg».proof.Proof.Gen.ReferenceIdeal
import proofs.«176723_g33088428048464_cont_sun_c4_452_12_alg».proof.Proof.Gen.Pre_any_inputs
import proofs.«176723_g33088428048464_cont_sun_c4_452_12_alg».proof.Proof.KernelFrame
import proofs.«176723_g33088428048464_cont_sun_c4_452_12_alg».proof.Proof.KernelIdealFrame
import proofs.«176723_g33088428048464_cont_sun_c4_452_12_alg».proof.Proof.Gen.ReferenceIdeal.Run
import proofs.«176723_g33088428048464_cont_sun_c4_452_12_alg».proof.Proof.Gen.ReferenceIdeal.Read
import proofs.«176723_g33088428048464_cont_sun_c4_452_12_alg».proof.Proof.OneHot
import proofs.«176723_g33088428048464_cont_sun_c4_452_12_alg».proof.Proof.KernelTable
import proofs.«176723_g33088428048464_cont_sun_c4_452_12_alg».proof.Proof.ReferenceTable
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_any_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.OneHot.batchMajor (m ((c.tc : Thread Cert.KernelIdeal.nD Cert.KernelIdeal.τ).loc Cert.KernelIdeal.main_arg0)),
      Cert.KernelIdeal.TableValue.run m ρ,
      (θ_run Cert.ReferenceIdeal.defs _ _).mono
        (fun _ h c => ⟨by rw [(h c).1, Cert.ReferenceIdeal.Read.val_main_v0_eq, Cert.ReferenceIdeal.TableValue.reference_table, hagree c],
          (h c).2⟩)
        (Cert.ReferenceIdeal.Value.run (F := Ideal) m' ρ')⟩⟩

end Cert.Proof

end
